-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S4096x1024 .f32) (main_arg5 : FVec F S4096 .f32) (main_arg6 : FVec F S4096 .f32) (main_arg7 : FVec F S1024 .f32) (main_arg8 : FVec F S1024 .f32) (main_arg9 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S4096 .f32) (main_arg6 : FVec F S4096 .f32) (main_arg7 : FVec F S1024 .f32) (main_arg8 : FVec F S1024 .f32) (main_arg9 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_v13 main_v16
-- ==== Kernel.lean ====
abbrev S4096x1024 : Shape := ⟨2, ![4096, 1024]⟩
abbrev S4096 : Shape := ⟨1, ![4096]⟩
abbrev S1024 : Shape := ⟨1, ![1024]⟩
abbrev S1x4096 : Shape := ⟨2, ![1, 4096]⟩
abbrev S1x1024 : Shape := ⟨2, ![1, 1024]⟩
abbrev S512x1024 : Shape := ⟨2, ![512, 1024]⟩
abbrev S512x4096 : Shape := ⟨2, ![512, 4096]⟩

abbrev nBuf : Space → Nat
  | .hbm => 21
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S1x4096, .f32⟩
  | .hbm, ⟨15, _⟩ => ⟨S1x4096, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S4096x1024, .f32⟩
  | .hbm, ⟨20, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S1x4096, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S4096x1024_S512x4096_1_1_0_0_n_n_wf : DotDims.WF S512x1024 S4096x1024 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S4096x1024.size a
  hwx0_10 : ∀ i : grid0.Coords, EltTy.bits .f32 = 32 ∨ (Rect.block (s := S4096x1024) S512x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S4096x1024.size a
  hwx0_11 : ∀ i : grid0.Coords, EltTy.bits .f32 = 32 ∨ (Rect.block (s := S4096x1024) S512x1024.size (cc0_transform_11 i) (hinb0_11 i)).WholeWords (EltTy.packing .f32)

variable [Facts₀]

def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9_0) S512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_1) S512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S1024 : Shape := ⟨1, ![1024]⟩
abbrev S1024x4096 : Shape := ⟨2, ![1024, 4096]⟩
abbrev S4096x4096 : Shape := ⟨2, ![4096, 4096]⟩
abbrev S1x4096 : Shape := ⟨2, ![1, 4096]⟩
abbrev S1x1024 : Shape := ⟨2, ![1, 1024]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x4096, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S1024x4096, .f32⟩
  | .hbm, ⟨16, _⟩ => ⟨S4096x4096, .f32⟩
  | .hbm, ⟨17, _⟩ => ⟨S4096x4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LstmCell.lean ====
/-
  The peephole LSTM cell as one function of its inputs, element by element, on the extended reals.

  For batch row `b` and hidden unit `q` (1024 of them), with `x_b`, `h_b` the rows of the input and the previous hidden
  state, `c` the previous cell value at `(b, q)`, and the four gate columns `q`, `q + 1024`, `q + 2048`, `q + 3072`
  of the 4096 pre-activations

      g_j = ((Σ_k x_b[k] · W_ih[j, k]) + b_ih[j]) + (Σ_k h_b[k] · W_hh[j, k]) + b_hh[j],

  the new cell value is   σ(g_{q+1024} + c · w_fc[q]) · c + σ(g_q + c · w_ic[q]) · tanh g_{q+2048}
  and the new hidden is   σ(g_{q+3072} + c · w_oc[q]) · tanh (new cell),
  where σ z = 1 / (1 + e^{-z}). Both programs compute exactly these terms, in this association; the one spelling
  difference is the kernel's `0 - z` for the reference's `-z` inside σ, which agree on every extended real.
-/
import Idealize.ShloMosaic.PureOps.Ideal
import Idealize.ShloMosaic.PureOps.Ideal.Laws
import Idealize.ShloMosaic.Lib.ValueIdx

noncomputable section

namespace Cert.LstmCell

open Idealize.ShloMosaic

/-- The f32 word of 1.0, kept as a word: both programs carry the same word, so it is never evaluated. -/
abbrev one : EReal := Ideal.ofBits .f32 0x3F800000#32

/-- The logistic function as both programs spell it, `1 / (1 + e^{-z})`, with the exact division and exponential. -/
def sigm (z : EReal) : EReal := Ideal.div one (one + Ideal.exp (-z))

/-- Subtracting from the zero word is negation, on every extended real (infinities included). -/
theorem zero_sub_eq_neg (z : EReal) : Ideal.ofBits .f32 0x00000000#32 - z = -z := by
  rw [Ideal.ofBits_zero_f32, sub_eq_add_neg, zero_add]

/-- The logistic function with the kernel's `0 - z` in the exponent. -/
theorem sigm_eq (z : EReal) :
    Ideal.div one (one + Ideal.exp (Ideal.ofBits .f32 0x00000000#32 - z)) = sigm z := by
  rw [zero_sub_eq_neg]; rfl

/-- The four gate columns of hidden unit `q`: input, forget, cell and output gate. -/
abbrev colI (q : Fin 1024) : Fin 4096 := ⟨q.val, by have := q.isLt; omega⟩
abbrev colF (q : Fin 1024) : Fin 4096 := ⟨q.val + 1024, by have := q.isLt; omega⟩
abbrev colG (q : Fin 1024) : Fin 4096 := ⟨q.val + 2048, by have := q.isLt; omega⟩
abbrev colO (q : Fin 1024) : Fin 4096 := ⟨q.val + 3072, by have := q.isLt; omega⟩

/-- Pre-activation `j` of one batch row: the two matrix-vector products and the two biases, added in the order both
    programs add them. -/
def gate (xr hr : Fin 1024 → EReal) (wih whh : Fin 4096 → Fin 1024 → EReal) (bih bhh : Fin 4096 → EReal)
    (j : Fin 4096) : EReal :=
  (((∑ k : Fin 1024, xr k * wih j k) + bih j) + ∑ k : Fin 1024, hr k * whh j k) + bhh j

/-- The new cell value of hidden unit `q` from the row's data and the previous cell value `cv`. -/
def cellVal (xr hr : Fin 1024 → EReal) (cv : EReal) (wih whh : Fin 4096 → Fin 1024 → EReal) (bih bhh : Fin 4096 → EReal)
    (wic wfc : Fin 1024 → EReal) (q : Fin 1024) : EReal :=
  sigm (gate xr hr wih whh bih bhh (colF q) + cv * wfc q) * cv
    + sigm (gate xr hr wih whh bih bhh (colI q) + cv * wic q) * Ideal.tanh (gate xr hr wih whh bih bhh (colG q))

/-- The new hidden value of hidden unit `q`. -/
def hiddenVal (xr hr : Fin 1024 → EReal) (cv : EReal) (wih whh : Fin 4096 → Fin 1024 → EReal) (bih bhh : Fin 4096 → EReal)
    (wic wfc woc : Fin 1024 → EReal) (q : Fin 1024) : EReal :=
  sigm (gate xr hr wih whh bih bhh (colO q) + cv * woc q)
    * Ideal.tanh (cellVal xr hr cv wih whh bih bhh wic wfc q)

/-- Equal data give equal cell values. -/
theorem cellVal_congr {xr xr' hr hr' : Fin 1024 → EReal} {cv cv' : EReal} {wih wih' whh whh' : Fin 4096 → Fin 1024 → EReal}
    {bih bih' bhh bhh' : Fin 4096 → EReal} {wic wic' wfc wfc' : Fin 1024 → EReal} (q : Fin 1024)
    (h0 : xr = xr') (h1 : hr = hr') (h2 : cv = cv') (h3 : wih = wih') (h4 : whh = whh') (h5 : bih = bih')
    (h6 : bhh = bhh') (h7 : wic = wic') (h8 : wfc = wfc') :
    cellVal xr hr cv wih whh bih bhh wic wfc q = cellVal xr' hr' cv' wih' whh' bih' bhh' wic' wfc' q := by
  rw [h0, h1, h2, h3, h4, h5, h6, h7, h8]

/-- Equal data give equal hidden values. -/
theorem hiddenVal_congr {xr xr' hr hr' : Fin 1024 → EReal} {cv cv' : EReal} {wih wih' whh whh' : Fin 4096 → Fin 1024 → EReal}
    {bih bih' bhh bhh' : Fin 4096 → EReal} {wic wic' wfc wfc' woc woc' : Fin 1024 → EReal} (q : Fin 1024)
    (h0 : xr = xr') (h1 : hr = hr') (h2 : cv = cv') (h3 : wih = wih') (h4 : whh = whh') (h5 : bih = bih')
    (h6 : bhh = bhh') (h7 : wic = wic') (h8 : wfc = wfc') (h9 : woc = woc') :
    hiddenVal xr hr cv wih whh bih bhh wic wfc woc q = hiddenVal xr' hr' cv' wih' whh' bih' bhh' wic' wfc' woc' q := by
  rw [h0, h1, h2, h3, h4, h5, h6, h7, h8, h9]

/-! ## The two result arrays -/

/-- The shapes of the arguments: [4096, 1024] for the input, the two states and the two weights, [4096] for the biases,
    [1024] for the peephole weights. -/
abbrev Mat := (⟨2, ![4096, 1024]⟩ : Shape).Idx → EReal
abbrev Bias := (⟨1, ![4096]⟩ : Shape).Idx → EReal
abbrev Peep := (⟨1, ![1024]⟩ : Shape).Idx → EReal

open Idealize.ShloMosaic.ValueIdx in
/-- The new cell array: entry `(b, q)` is the cell value of hidden unit `q` from rows `b` of the input and of the
    previous hidden state and the previous cell value at `(b, q)`. -/
def cellArr (x h c wih whh : Mat) (bih bhh : Bias) (wic wfc : Peep) : Mat := fun i =>
  cellVal (fun k => x (ix2 (i 0) k)) (fun k => h (ix2 (i 0) k)) (c i) (fun j k => wih (ix2 j k)) (fun j k => whh (ix2 j k))
    (fun j => bih (ix1 j)) (fun j => bhh (ix1 j)) (fun q => wic (ix1 q)) (fun q => wfc (ix1 q)) (i 1)

open Idealize.ShloMosaic.ValueIdx in
/-- The new hidden array, likewise. -/
def hiddenArr (x h c wih whh : Mat) (bih bhh : Bias) (wic wfc woc : Peep) : Mat := fun i =>
  hiddenVal (fun k => x (ix2 (i 0) k)) (fun k => h (ix2 (i 0) k)) (c i) (fun j k => wih (ix2 j k)) (fun j k => whh (ix2 j k))
    (fun j => bih (ix1 j)) (fun j => bhh (ix1 j)) (fun q => wic (ix1 q)) (fun q => wfc (ix1 q)) (fun q => woc (ix1 q)) (i 1)

open Idealize.ShloMosaic.ValueIdx in
/-- The new cell array at `(b, q)`. -/
theorem cellArr_at (x h c wih whh : Mat) (bih bhh : Bias) (wic wfc : Peep) (b : Fin 4096) (q : Fin 1024) :
    cellArr x h c wih whh bih bhh wic wfc (ix2 b q)
      = cellVal (fun k => x (ix2 b k)) (fun k => h (ix2 b k)) (c (ix2 b q)) (fun j k => wih (ix2 j k)) (fun j k => whh (ix2 j k))
          (fun j => bih (ix1 j)) (fun j => bhh (ix1 j)) (fun q => wic (ix1 q)) (fun q => wfc (ix1 q)) q := rfl

open Idealize.ShloMosaic.ValueIdx in
/-- The new hidden array at `(b, q)`. -/
theorem hiddenArr_at (x h c wih whh : Mat) (bih bhh : Bias) (wic wfc woc : Peep) (b : Fin 4096) (q : Fin 1024) :
    hiddenArr x h c wih whh bih bhh wic wfc woc (ix2 b q)
      = hiddenVal (fun k => x (ix2 b k)) (fun k => h (ix2 b k)) (c (ix2 b q)) (fun j k => wih (ix2 j k)) (fun j k => whh (ix2 j k))
          (fun j => bih (ix1 j)) (fun j => bhh (ix1 j)) (fun q => wic (ix1 q)) (fun q => wfc (ix1 q)) (fun q => woc (ix1 q)) q := rfl

end Cert.LstmCell

end
-- ==== Proof.KerCell.lean ====
/-
  The kernel's body, read element by element. One grid point works on 512 batch rows: it forms the [512, 4096]
  pre-activations from its block of the input and of the previous hidden state (two products against the whole weights,
  each contracted over the 1024-long second axis of both operands, plus the two bias rows), cuts the four gate columns
  out of them, and stores the peephole LSTM cell's new hidden and new cell values (LstmCell.lean) of its rows.
-/
import proofs.«137256_j12343736008988_1_alg».proof.Proof.Gen.KernelIdeal.Value
import proofs.«137256_j12343736008988_1_alg».proof.Proof.LstmCell
import Idealize.ShloMosaic.Lib.Pipeline.Value
import Idealize.ShloMosaic.Lib.ValueIdx
import Idealize.ShloMosaic.PureOps.Ideal.Laws

noncomputable section

namespace Cert.KernelIdeal.KerCell

open Cert.KernelIdeal Cert.KernelIdeal.Gen Cert.KernelIdeal.Value
open Idealize.ShloMosaic Idealize.ShloMosaic.TcCoe Idealize.ShloMosaic.ValueIdx Cert.LstmCell

/-! ## The matrix product at an index -/

theorem lhs_axis0 (i : S512x4096.Idx) (q : dot_S512x1024_S4096x1024_S512x4096_1_1_0_0_n_n.contr.Idx) :
    (dot_S512x1024_S4096x1024_S512x4096_1_1_0_0_n_n.lhsIdx i q 0).val = (i 0).val := by
  unfold DotDims.lhsIdx
  rw [dif_neg (show ¬(0 : Fin S512x1024.rank) ∈ dot_S512x1024_S4096x1024_S512x4096_1_1_0_0_n_n.lhsBatch by decide), dif_pos (show (0 : Fin S512x1024.rank) ∈ dot_S512x1024_S4096x1024_S512x4096_1_1_0_0_n_n.lhsNonContracting by decide)]
  rfl
theorem lhs_axis1 (i : S512x4096.Idx) (q : dot_S512x1024_S4096x1024_S512x4096_1_1_0_0_n_n.contr.Idx) :
    (dot_S512x1024_S4096x1024_S512x4096_1_1_0_0_n_n.lhsIdx i q 1).val = (q ⟨0, by decide⟩).val :=
  dot_S512x1024_S4096x1024_S512x4096_1_1_0_0_n_n.lhsIdx_val_of_single rfl i q
theorem rhs_axis0 (i : S512x4096.Idx) (q : dot_S512x1024_S4096x1024_S512x4096_1_1_0_0_n_n.contr.Idx) :
    (dot_S512x1024_S4096x1024_S512x4096_1_1_0_0_n_n.rhsIdx i q 0).val = (i 1).val := by
  unfold DotDims.rhsIdx
  rw [dif_neg (show ¬(0 : Fin S4096x1024.rank) ∈ dot_S512x1024_S4096x1024_S512x4096_1_1_0_0_n_n.rhsBatch by decide), dif_pos (show (0 : Fin S4096x1024.rank) ∈ dot_S512x1024_S4096x1024_S512x4096_1_1_0_0_n_n.rhsNonContracting by decide)]
  rfl
theorem rhs_axis1 (i : S512x4096.Idx) (q : dot_S512x1024_S4096x1024_S512x4096_1_1_0_0_n_n.contr.Idx) :
    (dot_S512x1024_S4096x1024_S512x4096_1_1_0_0_n_n.rhsIdx i q 1).val = (q ⟨0, by decide⟩).val :=
  dot_S512x1024_S4096x1024_S512x4096_1_1_0_0_n_n.rhsIdx_val_of_single rfl i q

/-- Row `p` of the left operand against row `j` of the right one: both operands are contracted over their second
    axis, so entry `(p, j)` of the product into a zero accumulator is `Σ_k l[p, k] · r[j, k]`. -/
theorem matmul_at (l : FVec Ideal S512x1024 .bf16) (r : FVec Ideal S4096x1024 .bf16) (p : Fin 512) (j : Fin 4096) :
    matmul dot_S512x1024_S4096x1024_S512x4096_1_1_0_0_n_n none l r (constant (F := Ideal) S512x4096 .f32 0x00000000#32) (ix2 p j)
      = ∑ k : Fin 1024, l (ix2 p k) * r (ix2 j k) := by
  simp only [matmul]
  rw [Ideal.matmul_constant_zero_apply, ← Equiv.sum_comp (ValueIdx.contrEquiv1 dot_S512x1024_S4096x1024_S512x4096_1_1_0_0_n_n 1024 rfl rfl).symm]
  refine Finset.sum_congr rfl fun k _ => ?_
  have hk := ValueIdx.contrEquiv1_symm_val dot_S512x1024_S4096x1024_S512x4096_1_1_0_0_n_n 1024 rfl rfl k
  have el : dot_S512x1024_S4096x1024_S512x4096_1_1_0_0_n_n.lhsIdx (ix2 p j) ((ValueIdx.contrEquiv1 dot_S512x1024_S4096x1024_S512x4096_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S512x1024_S4096x1024_S512x4096_1_1_0_0_n_n.rhsIdx (ix2 p j) ((ValueIdx.contrEquiv1 dot_S512x1024_S4096x1024_S512x4096_1_1_0_0_n_n 1024 rfl rfl).symm k) = ix2 j k := funext fun a => Fin.ext (by
    match a with
    | ⟨0, _⟩ => exact rhs_axis0 _ _
    | ⟨1, _⟩ => exact (rhs_axis1 _ _).trans hk)
  rw [el, er]

/-- A [1, 4096] bias row spread over the 512 rows reads its entry `j` at every `(p, j)`. -/
theorem bias_at (v : S1x4096.Idx → EReal) (h : S1x4096.Broadcasts S512x4096) (p : Fin 512) (j : Fin 4096) :
    broadcastTo S512x4096 v h (ix2 p j) = v (ix2 0 j) :=
  broadcastTo_apply v h (ix2 p j) (ix2 0 j) (fun a => match a with
    | ⟨0, _⟩ => by show 0 = if (1 : Nat) = 1 then 0 else p.val; rw [if_pos rfl]
    | ⟨1, _⟩ => by show j.val = if (4096 : Nat) = 1 then 0 else j.val; rw [if_neg (by decide)])

/-- The pre-activations of one grid point at `(p, j)`. -/
theorem pay3_at (v0 v2 : Vec Ideal S512x1024 .bf16) (v5 v7 : Vec Ideal S4096x1024 .bf16) (v10 v16 : Vec Ideal S1x4096 .f32)
    (p : Fin 512) (j : Fin 4096) :
    k0_pay3 v0 v2 v5 v7 v10 v16 (ix2 p j)
      = gate (fun k => v0 (ix2 p k)) (fun k => v2 (ix2 p k)) (fun j k => v5 (ix2 j k)) (fun j k => v7 (ix2 j k))
          (fun j => v10 (ix2 0 j)) (fun j => v16 (ix2 0 j)) j := by
  unfold k0_pay3 gate
  simp only [shapeCast_self]
  refine congrArg₂ (· + ·) (congrArg₂ (· + ·) (congrArg₂ (· + ·) ?_ ?_) ?_) ?_
  · exact matmul_at v0 v5 p j
  · exact bias_at v10 _ p j
  · exact matmul_at v2 v7 p j
  · exact bias_at v16 _ p j

/-! ## Where the stored values read the pre-activations, the cell block and the peephole rows -/

theorem i11_0 (p : Fin 512) (q : Fin 1024) : ix11_0 (ix2 p q) = (ix2 p (colF q) : S512x4096.Idx) := by
  funext a; apply Fin.ext
  match a with
  | ⟨0, _⟩ => rfl
  | ⟨1, _⟩ => rfl
theorem i11_1 (p : Fin 512) (q : Fin 1024) : ix11_1 (ix2 p q) = (ix2 p q : S512x1024.Idx) := by
  funext a; apply Fin.ext
  match a with
  | ⟨0, _⟩ => rfl
  | ⟨1, _⟩ => rfl
theorem i11_2 (p : Fin 512) (q : Fin 1024) : ix11_2 (ix2 p q) = (ix2 (0 : Fin 1) q : S1x1024.Idx) := by
  funext a; apply Fin.ext
  match a with
  | ⟨0, _⟩ => rfl
  | ⟨1, _⟩ => rfl
theorem i11_3 (p : Fin 512) (q : Fin 1024) : ix11_3 (ix2 p q) = (ix2 p q : S512x1024.Idx) := by
  funext a; apply Fin.ext
  match a with
  | ⟨0, _⟩ => rfl
  | ⟨1, _⟩ => rfl
theorem i11_4 (p : Fin 512) (q : Fin 1024) : ix11_4 (ix2 p q) = (ix2 p (colI q) : S512x4096.Idx) := by
  funext a; apply Fin.ext
  match a with
  | ⟨0, _⟩ => rfl
  | ⟨1, _⟩ => rfl
theorem i11_5 (p : Fin 512) (q : Fin 1024) : ix11_5 (ix2 p q) = (ix2 p q : S512x1024.Idx) := by
  funext a; apply Fin.ext
  match a with
  | ⟨0, _⟩ => rfl
  | ⟨1, _⟩ => rfl
theorem i11_6 (p : Fin 512) (q : Fin 1024) : ix11_6 (ix2 p q) = (ix2 (0 : Fin 1) q : S1x1024.Idx) := by
  funext a; apply Fin.ext
  match a with
  | ⟨0, _⟩ => rfl
  | ⟨1, _⟩ => rfl
theorem i11_7 (p : Fin 512) (q : Fin 1024) : ix11_7 (ix2 p q) = (ix2 p (colG q) : S512x4096.Idx) := by
  funext a; apply Fin.ext
  match a with
  | ⟨0, _⟩ => rfl
  | ⟨1, _⟩ => rfl
theorem i10_0 (p : Fin 512) (q : Fin 1024) : ix10_0 (ix2 p q) = (ix2 p (colO q) : S512x4096.Idx) := by
  funext a; apply Fin.ext
  match a with
  | ⟨0, _⟩ => rfl
  | ⟨1, _⟩ => rfl
theorem i10_1 (p : Fin 512) (q : Fin 1024) : ix10_1 (ix2 p q) = (ix2 p q : S512x1024.Idx) := by
  funext a; apply Fin.ext
  match a with
  | ⟨0, _⟩ => rfl
  | ⟨1, _⟩ => rfl
theorem i10_2 (p : Fin 512) (q : Fin 1024) : ix10_2 (ix2 p q) = (ix2 (0 : Fin 1) q : S1x1024.Idx) := by
  funext a; apply Fin.ext
  match a with
  | ⟨0, _⟩ => rfl
  | ⟨1, _⟩ => rfl
theorem i10_3 (p : Fin 512) (q : Fin 1024) : ix10_3 (ix2 p q) = (ix2 p (colF q) : S512x4096.Idx) := by
  funext a; apply Fin.ext
  match a with
  | ⟨0, _⟩ => rfl
  | ⟨1, _⟩ => rfl
theorem i10_4 (p : Fin 512) (q : Fin 1024) : ix10_4 (ix2 p q) = (ix2 p q : S512x1024.Idx) := by
  funext a; apply Fin.ext
  match a with
  | ⟨0, _⟩ => rfl
  | ⟨1, _⟩ => rfl
theorem i10_5 (p : Fin 512) (q : Fin 1024) : ix10_5 (ix2 p q) = (ix2 (0 : Fin 1) q : S1x1024.Idx) := by
  funext a; apply Fin.ext
  match a with
  | ⟨0, _⟩ => rfl
  | ⟨1, _⟩ => rfl
theorem i10_6 (p : Fin 512) (q : Fin 1024) : ix10_6 (ix2 p q) = (ix2 p q : S512x1024.Idx) := by
  funext a; apply Fin.ext
  match a with
  | ⟨0, _⟩ => rfl
  | ⟨1, _⟩ => rfl
theorem i10_7 (p : Fin 512) (q : Fin 1024) : ix10_7 (ix2 p q) = (ix2 p (colI q) : S512x4096.Idx) := by
  funext a; apply Fin.ext
  match a with
  | ⟨0, _⟩ => rfl
  | ⟨1, _⟩ => rfl
theorem i10_8 (p : Fin 512) (q : Fin 1024) : ix10_8 (ix2 p q) = (ix2 p q : S512x1024.Idx) := by
  funext a; apply Fin.ext
  match a with
  | ⟨0, _⟩ => rfl
  | ⟨1, _⟩ => rfl
theorem i10_9 (p : Fin 512) (q : Fin 1024) : ix10_9 (ix2 p q) = (ix2 (0 : Fin 1) q : S1x1024.Idx) := by
  funext a; apply Fin.ext
  match a with
  | ⟨0, _⟩ => rfl
  | ⟨1, _⟩ => rfl
theorem i10_10 (p : Fin 512) (q : Fin 1024) : ix10_10 (ix2 p q) = (ix2 p (colG q) : S512x4096.Idx) := by
  funext a; apply Fin.ext
  match a with
  | ⟨0, _⟩ => rfl
  | ⟨1, _⟩ => rfl

/-! ## The two stored blocks -/

/-- The block one grid point stores as the new cell values, at `(p, q)`. -/
theorem E11_at (P0 P1 : Vec Ideal S512x1024 .bf16) (P2 P3 : Vec Ideal S4096x1024 .bf16) (P4 P5 : Vec Ideal S1x4096 .f32)
    (P6 : Vec Ideal S512x1024 .f32) (P7 P8 : Vec Ideal S1x1024 .f32) (p : Fin 512) (q : Fin 1024) :
    E11 P0 P1 P2 P3 P4 P5 P6 P7 P8 (ix2 p q)
      = cellVal (fun k => P0 (ix2 p k)) (fun k => P1 (ix2 p k)) (P6 (ix2 p q)) (fun j k => P2 (ix2 j k)) (fun j k => P3 (ix2 j k))
          (fun j => P4 (ix2 0 j)) (fun j => P5 (ix2 0 j)) (fun q => P8 (ix2 0 q)) (fun q => P7 (ix2 0 q)) q := by
  unfold E11
  rw [i11_0, i11_1, i11_2, i11_3, i11_4, i11_5, i11_6, i11_7, pay3_at, pay3_at, pay3_at]
  unfold cellVal
  simp only [← sigm_eq]
  rfl

/-- The block one grid point stores as the new hidden values, at `(p, q)`. -/
theorem E10_at (P0 P1 : Vec Ideal S512x1024 .bf16) (P2 P3 : Vec Ideal S4096x1024 .bf16) (P4 P5 : Vec Ideal S1x4096 .f32)
    (P6 : Vec Ideal S512x1024 .f32) (P7 P8 P9 : Vec Ideal S1x1024 .f32) (p : Fin 512) (q : Fin 1024) :
    E10 P0 P1 P2 P3 P4 P5 P6 P7 P8 P9 (ix2 p q)
      = hiddenVal (fun k => P0 (ix2 p k)) (fun k => P1 (ix2 p k)) (P6 (ix2 p q)) (fun j k => P2 (ix2 j k)) (fun j k => P3 (ix2 j k))
          (fun j => P4 (ix2 0 j)) (fun j => P5 (ix2 0 j)) (fun q => P9 (ix2 0 q)) (fun q => P8 (ix2 0 q)) (fun q => P7 (ix2 0 q)) q := by
  unfold E10
  rw [i10_0, i10_1, i10_2, i10_3, i10_4, i10_5, i10_6, i10_7, i10_8, i10_9, i10_10, pay3_at, pay3_at, pay3_at, pay3_at]
  unfold hiddenVal cellVal
  simp only [← sigm_eq]
  rfl

end Cert.KernelIdeal.KerCell

end
-- ==== Proof.KerRun.lean ====
/-
  The kernel's run, read back: after every grid point has stored its block, the two result arrays are the new hidden and
  the new cell arrays of the peephole LSTM cell (LstmCell.lean) of the argument arrays.

  Grid point `t` (of 8) works on batch rows `512·t … 512·t + 511`: its blocks of the input, of the previous hidden state
  and of the previous cell state are those rows; the two weights, the two biases and the three peephole rows are staged
  whole. Before the region the host only changes float formats (the identity on extended reals) and reshapes the
  five vectors to one-row matrices. So what point `t` stores is rows `512·t …` of the two result arrays, and the eight
  blocks tile them.
-/
import proofs.«137256_j12343736008988_1_alg».proof.Proof.KerCell
import Idealize.ShloMosaic.Lib.StableHlo.Run

noncomputable section

namespace Cert.KernelIdeal.KerRun

open Cert.KernelIdeal Cert.KernelIdeal.Gen Cert.KernelIdeal.Value Cert.KernelIdeal.KerCell
open Idealize.ShloMosaic Idealize.ShloMosaic.TcCoe Idealize.ShloMosaic.ValueIdx Idealize.SL.Sem Cert.LstmCell
open Idealize.ShloMosaic.Pipeline (Dat)

variable (m : (ℓ : Loc nD τ sig) → Buf (Elt Ideal) ℓ) (ρ : Dev nD → PrngReg)

/-! ## The arrays the region finds -/

/-- A change of float format is the identity on extended reals: the four arrays the host narrows are the arguments. -/
theorem V_main_v0 (c : Dev nD) : (V m c main_v0 : S4096x1024.Idx → EReal) = m ((c : Thread nD τ).loc main_arg0) := by
  dsimp only [Gen.V, Gen.hostOps0]; after_results; rfl
theorem V_main_v1 (c : Dev nD) : (V m c main_v1 : S4096x1024.Idx → EReal) = m ((c : Thread nD τ).loc main_arg1) := by
  dsimp only [Gen.V, Gen.hostOps0]; after_results; rfl
theorem V_main_v2 (c : Dev nD) : (V m c main_v2 : S4096x1024.Idx → EReal) = m ((c : Thread nD τ).loc main_arg3) := by
  dsimp only [Gen.V, Gen.hostOps0]; after_results; rfl
theorem V_main_v3 (c : Dev nD) : (V m c main_v3 : S4096x1024.Idx → EReal) = m ((c : Thread nD τ).loc main_arg4) := by
  dsimp only [Gen.V, Gen.hostOps0]; after_results; rfl

/-- The five vectors reach the region reshaped to one-row matrices. -/
theorem V_main_v4 (c : Dev nD) : (V m c main_v4 : S1x4096.Idx → EReal) = shapeCast S1x4096 (m ((c : Thread nD τ).loc main_arg5)) Facts₀.shapeCasts_S4096_S1x4096 := by
  dsimp only [Gen.V, Gen.hostOps0]; after_results; rfl
theorem V_main_v5 (c : Dev nD) : (V m c main_v5 : S1x4096.Idx → EReal) = shapeCast S1x4096 (m ((c : Thread nD τ).loc main_arg6)) Facts₀.shapeCasts_S4096_S1x4096 := by
  dsimp only [Gen.V, Gen.hostOps0]; after_results; rfl
theorem V_main_v6 (c : Dev nD) : (V m c main_v6 : S1x1024.Idx → EReal) = shapeCast S1x1024 (m ((c : Thread nD τ).loc main_arg7)) Facts₀.shapeCasts_S1024_S1x1024 := by
  dsimp only [Gen.V, Gen.hostOps0]; after_results; rfl
theorem V_main_v7 (c : Dev nD) : (V m c main_v7 : S1x1024.Idx → EReal) = shapeCast S1x1024 (m ((c : Thread nD τ).loc main_arg8)) Facts₀.shapeCasts_S1024_S1x1024 := by
  dsimp only [Gen.V, Gen.hostOps0]; after_results; rfl
theorem V_main_v8 (c : Dev nD) : (V m c main_v8 : S1x1024.Idx → EReal) = shapeCast S1x1024 (m ((c : Thread nD τ).loc main_arg9)) Facts₀.shapeCasts_S1024_S1x1024 := by
  dsimp only [Gen.V, Gen.hostOps0]; after_results; rfl

/-! ## The index maps, decided over the eight grid points -/

/-- The batch-blocked windows (input, hidden, cell, and the two results) are at block row `t`; every other window
    stays at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-! ## Each window's block, read in its array -/

/-- Window 0's block at point `t` is rows `512·t … 512·t + 511` of its array. -/
theorem blk0_at (c : Dev nD) (t : Fin cfg0.N) (p : Fin 512) (k : Fin 1024) (b : Fin 4096) (hb : b.val = t.val * 512 + p.val) :
    iblk m c 0 t (ix2 p k) = m ((c : Thread nD τ).loc main_arg0) (ix2 b k) := by
  show V m c main_v0 (((cfg0.win 0).blk t).view.emb (ix2 p k)) = _
  refine (congrFun (V_main_v0 m c) _).trans (congrArg (m ((c : Thread nD τ).loc main_arg0)) ?_)
  obtain ⟨r0, c0, r1, c1, r2, c2, r10, c10, r11, c11, r3, c3, r4, c4, r5, c5, r6, c6, r7, c7, r8, c8, r9, c9⟩ := idx_facts t
  funext a; apply Fin.ext
  match a with
  | ⟨0, _⟩ => show win0_0.index t (0 : Fin 2) * 512 + 1 * p.val = b.val; omega
  | ⟨1, _⟩ => show win0_0.index t (1 : Fin 2) * 1024 + 1 * k.val = k.val; omega

/-- Window 1's block at point `t` is rows `512·t … 512·t + 511` of its array. -/
theorem blk1_at (c : Dev nD) (t : Fin cfg0.N) (p : Fin 512) (k : Fin 1024) (b : Fin 4096) (hb : b.val = t.val * 512 + p.val) :
    iblk m c 1 t (ix2 p k) = m ((c : Thread nD τ).loc main_arg1) (ix2 b k) := by
  show V m c main_v1 (((cfg0.win 1).blk t).view.emb (ix2 p k)) = _
  refine (congrFun (V_main_v1 m c) _).trans (congrArg (m ((c : Thread nD τ).loc main_arg1)) ?_)
  obtain ⟨r0, c0, r1, c1, r2, c2, r10, c10, r11, c11, r3, c3, r4, c4, r5, c5, r6, c6, r7, c7, r8, c8, r9, c9⟩ := idx_facts t
  funext a; apply Fin.ext
  match a with
  | ⟨0, _⟩ => show win0_1.index t (0 : Fin 2) * 512 + 1 * p.val = b.val; omega
  | ⟨1, _⟩ => show win0_1.index t (1 : Fin 2) * 1024 + 1 * k.val = k.val; omega

/-- Window 2's block at point `t` is rows `512·t … 512·t + 511` of its array. -/
theorem blk2_at (c : Dev nD) (t : Fin cfg0.N) (p : Fin 512) (k : Fin 1024) (b : Fin 4096) (hb : b.val = t.val * 512 + p.val) :
    iblk m c 2 t (ix2 p k) = m ((c : Thread nD τ).loc main_arg2) (ix2 b k) := by
  show V m c main_arg2 (((cfg0.win 2).blk t).view.emb (ix2 p k)) = _
  refine (congrFun (V_main_arg2 m c) _).trans (congrArg (m ((c : Thread nD τ).loc main_arg2)) ?_)
  obtain ⟨r0, c0, r1, c1, r2, c2, r10, c10, r11, c11, r3, c3, r4, c4, r5, c5, r6, c6, r7, c7, r8, c8, r9, c9⟩ := idx_facts t
  funext a; apply Fin.ext
  match a with
  | ⟨0, _⟩ => show win0_2.index t (0 : Fin 2) * 512 + 1 * p.val = b.val; omega
  | ⟨1, _⟩ => show win0_2.index t (1 : Fin 2) * 1024 + 1 * k.val = k.val; omega

/-- Window 3 stages its whole [4096, 1024] array at every point. -/
theorem blk3_at (c : Dev nD) (t : Fin cfg0.N) (j : Fin 4096) (k : Fin 1024) :
    iblk m c 3 t (ix2 j k) = m ((c : Thread nD τ).loc main_arg3) (ix2 j k) := by
  show V m c main_v2 (((cfg0.win 3).blk t).view.emb (ix2 j k)) = _
  refine (congrFun (V_main_v2 m c) _).trans (congrArg (m ((c : Thread nD τ).loc main_arg3)) ?_)
  obtain ⟨r0, c0, r1, c1, r2, c2, r10, c10, r11, c11, r3, c3, r4, c4, r5, c5, r6, c6, r7, c7, r8, c8, r9, c9⟩ := idx_facts t
  funext a; apply Fin.ext
  match a with
  | ⟨0, _⟩ => show win0_3.index t (0 : Fin 2) * 4096 + 1 * j.val = j.val; omega
  | ⟨1, _⟩ => show win0_3.index t (1 : Fin 2) * 1024 + 1 * k.val = k.val; omega

/-- Window 4 stages its whole [4096, 1024] array at every point. -/
theorem blk4_at (c : Dev nD) (t : Fin cfg0.N) (j : Fin 4096) (k : Fin 1024) :
    iblk m c 4 t (ix2 j k) = m ((c : Thread nD τ).loc main_arg4) (ix2 j k) := by
  show V m c main_v3 (((cfg0.win 4).blk t).view.emb (ix2 j k)) = _
  refine (congrFun (V_main_v3 m c) _).trans (congrArg (m ((c : Thread nD τ).loc main_arg4)) ?_)
  obtain ⟨r0, c0, r1, c1, r2, c2, r10, c10, r11, c11, r3, c3, r4, c4, r5, c5, r6, c6, r7, c7, r8, c8, r9, c9⟩ := idx_facts t
  funext a; apply Fin.ext
  match a with
  | ⟨0, _⟩ => show win0_4.index t (0 : Fin 2) * 4096 + 1 * j.val = j.val; omega
  | ⟨1, _⟩ => show win0_4.index t (1 : Fin 2) * 1024 + 1 * k.val = k.val; omega

/-- Window 5 stages its whole [1, 4096] row at every point; the row is the length-4096 argument reshaped. -/
theorem blk5_at (c : Dev nD) (t : Fin cfg0.N) (j : Fin 4096) :
    iblk m c 5 t (ix2 (0 : Fin 1) j) = m ((c : Thread nD τ).loc main_arg5) (ix1 j) := by
  show V m c main_v4 (((cfg0.win 5).blk t).view.emb (ix2 (0 : Fin 1) j)) = _
  have he : ((cfg0.win 5).blk t).view.emb (ix2 (0 : Fin 1) j) = (ix2 (0 : Fin 1) j : S1x4096.Idx) := by
    obtain ⟨r0, c0, r1, c1, r2, c2, r10, c10, r11, c11, r3, c3, r4, c4, r5, c5, r6, c6, r7, c7, r8, c8, r9, c9⟩ := idx_facts t
    funext a; apply Fin.ext
    match a with
    | ⟨0, _⟩ => show win0_5.index t (0 : Fin 2) * 1 + 1 * 0 = 0; omega
    | ⟨1, _⟩ => show win0_5.index t (1 : Fin 2) * 4096 + 1 * j.val = j.val; omega
  rw [he]
  refine (congrFun (V_main_v4 m c) _).trans ?_
  exact shapeCast_apply _ _ (ix2 (0 : Fin 1) j) (ix1 j) (by
    rw [Shape.rowMajor_val_one, Shape.rowMajor_val_two]; show j.val = (0 : Nat) * 4096 + j.val; omega)

/-- Window 6 stages its whole [1, 4096] row at every point; the row is the length-4096 argument reshaped. -/
theorem blk6_at (c : Dev nD) (t : Fin cfg0.N) (j : Fin 4096) :
    iblk m c 6 t (ix2 (0 : Fin 1) j) = m ((c : Thread nD τ).loc main_arg6) (ix1 j) := by
  show V m c main_v5 (((cfg0.win 6).blk t).view.emb (ix2 (0 : Fin 1) j)) = _
  have he : ((cfg0.win 6).blk t).view.emb (ix2 (0 : Fin 1) j) = (ix2 (0 : Fin 1) j : S1x4096.Idx) := by
    obtain ⟨r0, c0, r1, c1, r2, c2, r10, c10, r11, c11, r3, c3, r4, c4, r5, c5, r6, c6, r7, c7, r8, c8, r9, c9⟩ := idx_facts t
    funext a; apply Fin.ext
    match a with
    | ⟨0, _⟩ => show win0_6.index t (0 : Fin 2) * 1 + 1 * 0 = 0; omega
    | ⟨1, _⟩ => show win0_6.index t (1 : Fin 2) * 4096 + 1 * j.val = j.val; omega
  rw [he]
  refine (congrFun (V_main_v5 m c) _).trans ?_
  exact shapeCast_apply _ _ (ix2 (0 : Fin 1) j) (ix1 j) (by
    rw [Shape.rowMajor_val_one, Shape.rowMajor_val_two]; show j.val = (0 : Nat) * 4096 + j.val; omega)

/-- Window 7 stages its whole [1, 1024] row at every point; the row is the length-1024 argument reshaped. -/
theorem blk7_at (c : Dev nD) (t : Fin cfg0.N) (j : Fin 1024) :
    iblk m c 7 t (ix2 (0 : Fin 1) j) = m ((c : Thread nD τ).loc main_arg7) (ix1 j) := by
  show V m c main_v6 (((cfg0.win 7).blk t).view.emb (ix2 (0 : Fin 1) j)) = _
  have he : ((cfg0.win 7).blk t).view.emb (ix2 (0 : Fin 1) j) = (ix2 (0 : Fin 1) j : S1x1024.Idx) := by
    obtain ⟨r0, c0, r1, c1, r2, c2, r10, c10, r11, c11, r3, c3, r4, c4, r5, c5, r6, c6, r7, c7, r8, c8, r9, c9⟩ := idx_facts t
    funext a; apply Fin.ext
    match a with
    | ⟨0, _⟩ => show win0_7.index t (0 : Fin 2) * 1 + 1 * 0 = 0; omega
    | ⟨1, _⟩ => show win0_7.index t (1 : Fin 2) * 1024 + 1 * j.val = j.val; omega
  rw [he]
  refine (congrFun (V_main_v6 m c) _).trans ?_
  exact shapeCast_apply _ _ (ix2 (0 : Fin 1) j) (ix1 j) (by
    rw [Shape.rowMajor_val_one, Shape.rowMajor_val_two]; show j.val = (0 : Nat) * 1024 + j.val; omega)

/-- Window 8 stages its whole [1, 1024] row at every point; the row is the length-1024 argument reshaped. -/
theorem blk8_at (c : Dev nD) (t : Fin cfg0.N) (j : Fin 1024) :
    iblk m c 8 t (ix2 (0 : Fin 1) j) = m ((c : Thread nD τ).loc main_arg8) (ix1 j) := by
  show V m c main_v7 (((cfg0.win 8).blk t).view.emb (ix2 (0 : Fin 1) j)) = _
  have he : ((cfg0.win 8).blk t).view.emb (ix2 (0 : Fin 1) j) = (ix2 (0 : Fin 1) j : S1x1024.Idx) := by
    obtain ⟨r0, c0, r1, c1, r2, c2, r10, c10, r11, c11, r3, c3, r4, c4, r5, c5, r6, c6, r7, c7, r8, c8, r9, c9⟩ := idx_facts t
    funext a; apply Fin.ext
    match a with
    | ⟨0, _⟩ => show win0_8.index t (0 : Fin 2) * 1 + 1 * 0 = 0; omega
    | ⟨1, _⟩ => show win0_8.index t (1 : Fin 2) * 1024 + 1 * j.val = j.val; omega
  rw [he]
  refine (congrFun (V_main_v7 m c) _).trans ?_
  exact shapeCast_apply _ _ (ix2 (0 : Fin 1) j) (ix1 j) (by
    rw [Shape.rowMajor_val_one, Shape.rowMajor_val_two]; show j.val = (0 : Nat) * 1024 + j.val; omega)

/-- Window 9 stages its whole [1, 1024] row at every point; the row is the length-1024 argument reshaped. -/
theorem blk9_at (c : Dev nD) (t : Fin cfg0.N) (j : Fin 1024) :
    iblk m c 9 t (ix2 (0 : Fin 1) j) = m ((c : Thread nD τ).loc main_arg9) (ix1 j) := by
  show V m c main_v8 (((cfg0.win 9).blk t).view.emb (ix2 (0 : Fin 1) j)) = _
  have he : ((cfg0.win 9).blk t).view.emb (ix2 (0 : Fin 1) j) = (ix2 (0 : Fin 1) j : S1x1024.Idx) := by
    obtain ⟨r0, c0, r1, c1, r2, c2, r10, c10, r11, c11, r3, c3, r4, c4, r5, c5, r6, c6, r7, c7, r8, c8, r9, c9⟩ := idx_facts t
    funext a; apply Fin.ext
    match a with
    | ⟨0, _⟩ => show win0_9.index t (0 : Fin 2) * 1 + 1 * 0 = 0; omega
    | ⟨1, _⟩ => show win0_9.index t (1 : Fin 2) * 1024 + 1 * j.val = j.val; omega
  rw [he]
  refine (congrFun (V_main_v8 m c) _).trans ?_
  exact shapeCast_apply _ _ (ix2 (0 : Fin 1) j) (ix1 j) (by
    rw [Shape.rowMajor_val_one, Shape.rowMajor_val_two]; show j.val = (0 : Nat) * 1024 + j.val; omega)

/-! ## What one grid point stores -/

theorem hz : (![0, 0] : Fin 2 → Nat) = fun _ => 0 := funext fun a => by fin_cases a <;> rfl

/-- The new-cell block a point stores, from the blocks it was handed, at `(p, q)`. -/
theorem out11_at (x0 x1 : Vec Ideal S512x1024 .bf16) (x2 : Vec Ideal S512x1024 .f32) (x3 x4 : Vec Ideal S4096x1024 .bf16) (x5 x6 : Vec Ideal S1x4096 .f32) (x7 x8 x9 : Vec Ideal S1x1024 .f32) (p : Fin 512) (q : Fin 1024) :
    out0_11 x0 x1 x2 x3 x4 x5 x6 x7 x8 x9 (ix2 p q)
      = cellVal (fun k => x0 (ix2 p k)) (fun k => x1 (ix2 p k)) (x2 (ix2 p q)) (fun j k => x3 (ix2 j k)) (fun j k => x4 (ix2 j k))
          (fun j => x5 (ix2 0 j)) (fun j => x6 (ix2 0 j)) (fun q => x7 (ix2 0 q)) (fun q => x8 (ix2 0 q)) q := by
  unfold out0_11
  simp only [View.ld_unit_zero (S := S512x1024) hz, View.ld_unit_zero (S := S4096x1024) hz, View.ld_unit_zero (S := S1x4096) hz,
    View.ld_unit_zero (S := S1x1024) hz]
  rw [canon11_eq]
  exact E11_at x0 x1 x3 x4 x5 x6 x2 x8 x7 p q

/-- The new-hidden block a point stores, from the blocks it was handed, at `(p, q)`. -/
theorem out10_at (x0 x1 : Vec Ideal S512x1024 .bf16) (x2 : Vec Ideal S512x1024 .f32) (x3 x4 : Vec Ideal S4096x1024 .bf16) (x5 x6 : Vec Ideal S1x4096 .f32) (x7 x8 x9 : Vec Ideal S1x1024 .f32) (p : Fin 512) (q : Fin 1024) :
    out0_10 x0 x1 x2 x3 x4 x5 x6 x7 x8 x9 (ix2 p q)
      = hiddenVal (fun k => x0 (ix2 p k)) (fun k => x1 (ix2 p k)) (x2 (ix2 p q)) (fun j k => x3 (ix2 j k)) (fun j k => x4 (ix2 j k))
          (fun j => x5 (ix2 0 j)) (fun j => x6 (ix2 0 j)) (fun q => x7 (ix2 0 q)) (fun q => x8 (ix2 0 q)) (fun q => x9 (ix2 0 q)) q := by
  unfold out0_10
  simp only [View.ld_unit_zero (S := S512x1024) hz, View.ld_unit_zero (S := S4096x1024) hz, View.ld_unit_zero (S := S1x4096) hz,
    View.ld_unit_zero (S := S1x1024) hz]
  rw [canon10_eq]
  exact E10_at x0 x1 x3 x4 x5 x6 x2 x9 x8 x7 p q

/-- What grid point `t` stores through window 11 is block `t` of the new cell array of the arguments. -/
theorem flushed11_eq (c : Dev nD) (t : Fin cfg0.N) :
    (dats m 0 c).flushed 11 t = ((cfg0.win 11).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Value.flushed11]
  funext y
  obtain ⟨p, q, rfl⟩ : ∃ (p : Fin 512) (q : Fin 1024), y = ix2 p q := ⟨y 0, y 1, eq_ix2 y⟩
  have ht : t.val < 8 := by have h := t.isLt; have e : cfg0.N = 8 := N_0; omega
  obtain ⟨b, hb⟩ : ∃ b : Fin 4096, b.val = t.val * 512 + p.val := ⟨⟨t.val * 512 + p.val, by have := p.isLt; omega⟩, rfl⟩
  have he : ((cfg0.win 11).blk t).view.emb (ix2 p q) = (ix2 b q : S4096x1024.Idx) := by
    obtain ⟨r0, c0, r1, c1, r2, c2, r10, c10, r11, c11, r3, c3, r4, c4, r5, c5, r6, c6, r7, c7, r8, c8, r9, c9⟩ := idx_facts t
    funext a; apply Fin.ext
    match a with
    | ⟨0, _⟩ => show win0_11.index t (0 : Fin 2) * 512 + 1 * p.val = b.val; omega
    | ⟨1, _⟩ => show win0_11.index t (1 : Fin 2) * 1024 + 1 * q.val = q.val; omega
  show out0_11 (iblk m c 0 t) (iblk m c 1 t) (iblk m c 2 t) (iblk m c 3 t) (iblk m c 4 t) (iblk m c 5 t) (iblk m c 6 t) (iblk m c 7 t) (iblk m c 8 t) (iblk m c 9 t) (ix2 p q) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 11).blk t).view.emb (ix2 p q))
  rw [he]
  refine (out11_at (iblk m c 0 t) (iblk m c 1 t) (iblk m c 2 t) (iblk m c 3 t) (iblk m c 4 t) (iblk m c 5 t) (iblk m c 6 t) (iblk m c 7 t) (iblk m c 8 t) (iblk m c 9 t) p q).trans (Eq.trans ?_ (cellArr_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b q).symm)
  exact cellVal_congr q (funext fun k => blk0_at m c t p k b hb) (funext fun k => blk1_at m c t p k b hb) (blk2_at m c t p q b hb)
    (funext fun j => funext fun k => blk3_at m c t j k) (funext fun j => funext fun k => blk4_at m c t j k)
    (funext fun j => blk5_at m c t j) (funext fun j => blk6_at m c t j) (funext fun j => blk7_at m c t j) (funext fun j => blk8_at m c t j)

/-- What grid point `t` stores through window 10 is block `t` of the new hidden array of the arguments. -/
theorem flushed10_eq (c : Dev nD) (t : Fin cfg0.N) :
    (dats m 0 c).flushed 10 t = ((cfg0.win 10).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Value.flushed10]
  funext y
  obtain ⟨p, q, rfl⟩ : ∃ (p : Fin 512) (q : Fin 1024), y = ix2 p q := ⟨y 0, y 1, eq_ix2 y⟩
  have ht : t.val < 8 := by have h := t.isLt; have e : cfg0.N = 8 := N_0; omega
  obtain ⟨b, hb⟩ : ∃ b : Fin 4096, b.val = t.val * 512 + p.val := ⟨⟨t.val * 512 + p.val, by have := p.isLt; omega⟩, rfl⟩
  have he : ((cfg0.win 10).blk t).view.emb (ix2 p q) = (ix2 b q : S4096x1024.Idx) := by
    obtain ⟨r0, c0, r1, c1, r2, c2, r10, c10, r11, c11, r3, c3, r4, c4, r5, c5, r6, c6, r7, c7, r8, c8, r9, c9⟩ := idx_facts t
    funext a; apply Fin.ext
    match a with
    | ⟨0, _⟩ => show win0_10.index t (0 : Fin 2) * 512 + 1 * p.val = b.val; omega
    | ⟨1, _⟩ => show win0_10.index t (1 : Fin 2) * 1024 + 1 * q.val = q.val; omega
  show out0_10 (iblk m c 0 t) (iblk m c 1 t) (iblk m c 2 t) (iblk m c 3 t) (iblk m c 4 t) (iblk m c 5 t) (iblk m c 6 t) (iblk m c 7 t) (iblk m c 8 t) (iblk m c 9 t) (ix2 p q) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 10).blk t).view.emb (ix2 p q))
  rw [he]
  refine (out10_at (iblk m c 0 t) (iblk m c 1 t) (iblk m c 2 t) (iblk m c 3 t) (iblk m c 4 t) (iblk m c 5 t) (iblk m c 6 t) (iblk m c 7 t) (iblk m c 8 t) (iblk m c 9 t) p q).trans (Eq.trans ?_ (hiddenArr_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b q).symm)
  exact hiddenVal_congr q (funext fun k => blk0_at m c t p k b hb) (funext fun k => blk1_at m c t p k b hb) (blk2_at m c t p q b hb)
    (funext fun j => funext fun k => blk3_at m c t j k) (funext fun j => funext fun k => blk4_at m c t j k)
    (funext fun j => blk5_at m c t j) (funext fun j => blk6_at m c t j) (funext fun j => blk7_at m c t j) (funext fun j => blk8_at m c t j) (funext fun j => blk9_at m c t j)

/-! ## The blocks tile the result arrays -/

/-- An index of the result array is in point `t`'s block iff each coordinate is in the block's range on its axis. -/
theorem mem_blk10 (t : Fin cfg0.N) (i : S4096x1024.Idx) :
    i ∈ ((cfg0.win 10).blk t).view.set ↔ ∀ a : Fin 2, win0_10.index t a * S512x1024.size a ≤ (i a).val ∧ (i a).val < win0_10.index t a * S512x1024.size a + S512x1024.size a := by
  show i ∈ ((View.whole main_v9_0).slice (win0_10.rect t)).set ↔ _
  rw [View.set_slice_whole, Rect.mem_set_unit]
  exact Iff.rfl

/-- The eight blocks tile the result array: row `r` lies in the block of point `r / 512`. -/
theorem cover10 (i : S4096x1024.Idx) :
    ∃ t : Fin cfg0.N, (cfg0.win 10).flush t = true ∧ i ∈ ((cfg0.win 10).blk t).view.set := by
  have hi0 : (i 0).val < 4096 := (i 0).isLt
  have hi1 : (i 1).val < 1024 := (i 1).isLt
  obtain ⟨t, htv⟩ : ∃ t : Fin cfg0.N, t.val = (i 0).val / 512 := ⟨⟨(i 0).val / 512, by rw [show cfg0.N = 8 from N_0]; omega⟩, rfl⟩
  refine ⟨t, flush0_10 t, ?_⟩
  rw [mem_blk10]
  obtain ⟨r0, c0, r1, c1, r2, c2, r10, c10, r11, c11, r3, c3, r4, c4, r5, c5, r6, c6, r7, c7, r8, c8, r9, c9⟩ := idx_facts t
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 1024 ≤ (i 1).val ∧ (i 1).val < win0_10.index t (1 : Fin 2) * 1024 + 1024; omega

/-- An index of the result array is in point `t`'s block iff each coordinate is in the block's range on its axis. -/
theorem mem_blk11 (t : Fin cfg0.N) (i : S4096x1024.Idx) :
    i ∈ ((cfg0.win 11).blk t).view.set ↔ ∀ a : Fin 2, win0_11.index t a * S512x1024.size a ≤ (i a).val ∧ (i a).val < win0_11.index t a * S512x1024.size a + S512x1024.size a := by
  show i ∈ ((View.whole main_v9_1).slice (win0_11.rect t)).set ↔ _
  rw [View.set_slice_whole, Rect.mem_set_unit]
  exact Iff.rfl

/-- The eight blocks tile the result array: row `r` lies in the block of point `r / 512`. -/
theorem cover11 (i : S4096x1024.Idx) :
    ∃ t : Fin cfg0.N, (cfg0.win 11).flush t = true ∧ i ∈ ((cfg0.win 11).blk t).view.set := by
  have hi0 : (i 0).val < 4096 := (i 0).isLt
  have hi1 : (i 1).val < 1024 := (i 1).isLt
  obtain ⟨t, htv⟩ : ∃ t : Fin cfg0.N, t.val = (i 0).val / 512 := ⟨⟨(i 0).val / 512, by rw [show cfg0.N = 8 from N_0]; omega⟩, rfl⟩
  refine ⟨t, flush0_11 t, ?_⟩
  rw [mem_blk11]
  obtain ⟨r0, c0, r1, c1, r2, c2, r10, c10, r11, c11, r3, c3, r4, c4, r5, c5, r6, c6, r7, c7, r8, c8, r9, c9⟩ := idx_facts t
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 1024 ≤ (i 1).val ∧ (i 1).val < win0_11.index t (1 : Fin 2) * 1024 + 1024; omega

/-! ## The result arrays after the run -/

/-- After the eight points the first result array is the new hidden array of the arguments. -/
theorem final10 (c : Dev nD) : (dats m 0 c).arrAt 10 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 10 _ (fun t _ => flushed10_eq m c t) cover10

/-- After the eight points the second result array is the new cell array of the arguments. -/
theorem final11 (c : Dev nD) : (dats m 0 c).arrAt 11 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 11 _ (fun t _ => flushed11_eq m c t) cover11

/-- The kernel's run: every weakly fair execution ends with the two results at the new hidden and the new cell arrays of
    the arguments, and the arguments unchanged. -/
theorem run : θ_run defs (onTc (τ := τ) (main (F := Ideal))) ⟨m, fun _ => 0, ρ⟩ fun r => ∀ c : Dev nD,
      r.2.mem ((c : Thread nD τ).loc main_v9_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v9_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (Value.run_blocks m ρ)

end Cert.KernelIdeal.KerRun

end
-- ==== Proof.RefCell.lean ====
/-
  The reference, read element by element: its new cell array and its new hidden array are the peephole LSTM cell
  (LstmCell.lean) of the argument arrays. Every stage of the reference is read at an index; the 4096-wide pre-activation
  array at `(b, j)` is `gate` of rows `b` of the input and of the previous hidden state (the transposed weight read
  back at `(j, k)`), its four column slices are the four gate columns, and the logistic is spelt `1 / (1 + e^{-z})`.
-/
import proofs.«137256_j12343736008988_1_alg».proof.Proof.Gen.ReferenceIdeal.Read
import proofs.«137256_j12343736008988_1_alg».proof.Proof.LstmCell

noncomputable section

namespace Cert.ReferenceIdeal.RefCell

open Cert.ReferenceIdeal Cert.ReferenceIdeal.Gen Cert.ReferenceIdeal.Read
open Idealize.ShloMosaic Idealize.ShloMosaic.TcCoe Idealize.ShloMosaic.ValueIdx Cert.LstmCell

/-- The argument arrays' types at the extended reals. -/
abbrev RMat := (⟨S4096x1024, .f32⟩ : BufTy).Contents (Elt Ideal)
abbrev RBias := (⟨S4096, .f32⟩ : BufTy).Contents (Elt Ideal)
abbrev RPeep := (⟨S1024, .f32⟩ : BufTy).Contents (Elt Ideal)

/-- Row `b` of a [4096, 1024] array. -/
abbrev rowOf (x : RMat) (b : Fin 4096) : Fin 1024 → EReal := fun k => x (ix2 b k)
/-- A [4096, 1024] weight by row and column. -/
abbrev matOf (w : RMat) : Fin 4096 → Fin 1024 → EReal := fun j k => w (ix2 j k)
/-- A length-4096 bias by entry. -/
abbrev biasOf (v : RBias) : Fin 4096 → EReal := fun j => v (ix1 j)
/-- A length-1024 peephole weight by entry. -/
abbrev peepOf (v : RPeep) : Fin 1024 → EReal := fun q => v (ix1 q)

/-! ## Where each stage reads its operand -/

theorem lhs1 (b j : Fin 4096) (k : Fin 1024) : lidx_main_v1 (ix2 b j) k = ix2 b k := by
  funext a; apply Fin.ext
  match a with
  | ⟨0, _⟩ => rfl
  | ⟨1, _⟩ => rfl

theorem rhs1 (b j : Fin 4096) (k : Fin 1024) : idx_main_v0 (ridx_main_v1 (ix2 b j) k) = ix2 j k := by
  funext a; apply Fin.ext
  match a with
  | ⟨0, _⟩ => rfl
  | ⟨1, _⟩ => rfl

theorem lhs6 (b j : Fin 4096) (k : Fin 1024) : lidx_main_v6 (ix2 b j) k = ix2 b k := by
  funext a; apply Fin.ext
  match a with
  | ⟨0, _⟩ => rfl
  | ⟨1, _⟩ => rfl

theorem rhs6 (b j : Fin 4096) (k : Fin 1024) : idx_main_v5 (ridx_main_v6 (ix2 b j) k) = ix2 j k := by
  funext a; apply Fin.ext
  match a with
  | ⟨0, _⟩ => rfl
  | ⟨1, _⟩ => rfl

theorem bias3 (b j : Fin 4096) : idx_main_v2 (idx_main_v3 (ix2 b j)) = ix1 j := by
  funext a; apply Fin.ext
  match a with
  | ⟨0, _⟩ => rfl

theorem bias9 (b j : Fin 4096) : idx_main_v8 (idx_main_v9 (ix2 b j)) = ix1 j := by
  funext a; apply Fin.ext
  match a with
  | ⟨0, _⟩ => rfl

theorem slice11 (b : Fin 4096) (q : Fin 1024) : idx_main_v11 (ix2 b q) = ix2 b (colI q) := by
  funext a; apply Fin.ext
  match a with
  | ⟨0, _⟩ => rfl
  | ⟨1, _⟩ => rfl

theorem slice12 (b : Fin 4096) (q : Fin 1024) : idx_main_v12 (ix2 b q) = ix2 b (colF q) := by
  funext a; apply Fin.ext
  match a with
  | ⟨0, _⟩ => rfl
  | ⟨1, _⟩ => show 1024 + q.val = q.val + 1024; omega

theorem slice13 (b : Fin 4096) (q : Fin 1024) : idx_main_v13 (ix2 b q) = ix2 b (colG q) := by
  funext a; apply Fin.ext
  match a with
  | ⟨0, _⟩ => rfl
  | ⟨1, _⟩ => show 2048 + q.val = q.val + 2048; omega

theorem slice14 (b : Fin 4096) (q : Fin 1024) : idx_main_v14 (ix2 b q) = ix2 b (colO q) := by
  funext a; apply Fin.ext
  match a with
  | ⟨0, _⟩ => rfl
  | ⟨1, _⟩ => show 3072 + q.val = q.val + 3072; omega

theorem peep16 (b : Fin 4096) (q : Fin 1024) : idx_main_v15 (idx_main_v16 (ix2 b q)) = ix1 q := by
  funext a; apply Fin.ext
  match a with
  | ⟨0, _⟩ => rfl

theorem peep26 (b : Fin 4096) (q : Fin 1024) : idx_main_v25 (idx_main_v26 (ix2 b q)) = ix1 q := by
  funext a; apply Fin.ext
  match a with
  | ⟨0, _⟩ => rfl

theorem peep37 (b : Fin 4096) (q : Fin 1024) : idx_main_v36 (idx_main_v37 (ix2 b q)) = ix1 q := by
  funext a; apply Fin.ext
  match a with
  | ⟨0, _⟩ => rfl

/-! ## The pre-activations -/

/-- The reference's [4096, 4096] pre-activation array at `(b, j)`: the two dot products over the contracted axis, each
    right operand the transposed weight read back at `(j, k)`, and the two biases, in the reference's association. -/
theorem gates_eq (x0 x1 x3 x4 : RMat) (x5 x6 : RBias) (b j : Fin 4096) :
    val_main_v10 (F := Ideal) x0 x1 x3 x4 x5 x6 (ix2 b j)
      = gate (rowOf x0 b) (rowOf x1 b) (matOf x3) (matOf x4) (biasOf x5) (biasOf x6) j := by
  rw [val_main_v10_apply, val_main_v7_apply, val_main_v4_apply, val_main_v1_apply, val_main_v3_apply, val_main_v2_apply,
    val_main_v6_apply, val_main_v9_apply, val_main_v8_apply]
  simp only [val_main_v0_apply, val_main_v5_apply, lhs1, rhs1, lhs6, rhs6, bias3, bias9]
  rfl

/-! ## The two results -/

/-- The reference's new cell array at `(b, q)`: forget gate times the previous cell value plus input gate times the
    tanh of the cell gate, each logistic as `1 / (1 + e^{-z})`. -/
theorem cell_eq (x0 x1 x2 x3 x4 : RMat) (x5 x6 : RBias) (x7 x8 : RPeep) (b : Fin 4096) (q : Fin 1024) :
    val_main_v48 (F := Ideal) x0 x1 x2 x3 x4 x5 x6 x7 x8 (ix2 b q)
      = cellVal (rowOf x0 b) (rowOf x1 b) (x2 (ix2 b q)) (matOf x3) (matOf x4) (biasOf x5) (biasOf x6) (peepOf x7) (peepOf x8) q := by
  simp only [val_main_v48_apply, val_main_v46_apply, val_main_v47_apply, val_main_v34_apply, val_main_v33_apply,
    val_main_v32_apply, val_main_v31_apply, val_main_v30_apply, val_main_v29_apply, val_main_v28_apply, val_main_v27_apply,
    val_main_v26_apply, val_main_v25_apply, val_main_v24_apply, val_main_v23_apply, val_main_v22_apply, val_main_v21_apply,
    val_main_v20_apply, val_main_v19_apply, val_main_v18_apply, val_main_v17_apply, val_main_v16_apply, val_main_v15_apply,
    val_main_v35_apply, val_main_v11_apply, val_main_v12_apply, val_main_v13_apply,
    val_main_cst_apply, val_main_cst_0_apply, val_main_cst_1_apply, val_main_cst_2_apply,
    slice11, slice12, slice13, peep16, peep26, gates_eq]
  rfl

/-- The reference's new hidden array at `(b, q)`: output gate times the tanh of the new cell value. -/
theorem hidden_eq (x0 x1 x2 x3 x4 : RMat) (x5 x6 : RBias) (x7 x8 x9 : RPeep) (b : Fin 4096) (q : Fin 1024) :
    val_main_v50 (F := Ideal) x0 x1 x2 x3 x4 x5 x6 x7 x8 x9 (ix2 b q)
      = hiddenVal (rowOf x0 b) (rowOf x1 b) (x2 (ix2 b q)) (matOf x3) (matOf x4) (biasOf x5) (biasOf x6) (peepOf x7) (peepOf x8) (peepOf x9) q := by
  rw [val_main_v50_apply, val_main_v49_apply, cell_eq]
  simp only [val_main_v45_apply, val_main_v44_apply, val_main_v43_apply, val_main_v42_apply, val_main_v41_apply,
    val_main_v40_apply, val_main_v39_apply, val_main_v38_apply, val_main_v37_apply, val_main_v36_apply, val_main_v14_apply,
    val_main_cst_3_apply, val_main_cst_4_apply, slice14, peep37, gates_eq]
  rfl

/-- The reference's new cell array is the cell array of its arguments. -/
theorem cellArr_eq (x0 x1 x2 x3 x4 : RMat) (x5 x6 : RBias) (x7 x8 : RPeep) :
    val_main_v48 (F := Ideal) x0 x1 x2 x3 x4 x5 x6 x7 x8 = cellArr x0 x1 x2 x3 x4 x5 x6 x7 x8 := by
  funext i
  obtain ⟨b, q, rfl⟩ : ∃ (b : Fin 4096) (q : Fin 1024), i = ix2 b q := ⟨i 0, i 1, eq_ix2 i⟩
  exact cell_eq x0 x1 x2 x3 x4 x5 x6 x7 x8 b q

/-- The reference's new hidden array is the hidden array of its arguments. -/
theorem hiddenArr_eq (x0 x1 x2 x3 x4 : RMat) (x5 x6 : RBias) (x7 x8 x9 : RPeep) :
    val_main_v50 (F := Ideal) x0 x1 x2 x3 x4 x5 x6 x7 x8 x9 = hiddenArr x0 x1 x2 x3 x4 x5 x6 x7 x8 x9 := by
  funext i
  obtain ⟨b, q, rfl⟩ : ∃ (b : Fin 4096) (q : Fin 1024), i = ix2 b q := ⟨i 0, i 1, eq_ix2 i⟩
  exact hidden_eq x0 x1 x2 x3 x4 x5 x6 x7 x8 x9 b q

end Cert.ReferenceIdeal.RefCell

end
-- ==== Proof.lean ====
/-
  A peephole LSTM cell, one step: from an input `x` and the previous hidden and cell states `h`, `c` (each [4096, 1024]),
  two [4096, 1024] weights, two length-4096 biases and three length-1024 peephole weights, the 4096 pre-activations of a
  batch row are `x·W_ihᵀ + b_ih + h·W_hhᵀ + b_hh`; their four 1024-wide column groups are the input, forget, cell and
  output gates; the new cell state is `σ(f + c·w_fc)·c + σ(i + c·w_ic)·tanh g` and the new hidden state
  `σ(o + c·w_oc)·tanh(new cell)`.

  The kernel does this 512 batch rows at a time over a grid of 8 points, with the two weights, the biases and the
  peephole rows resident; the reference does it on whole arrays. On the extended reals a change of float format is
  the identity, the kernel's matrix product into a zero accumulator and the reference's dot product against the
  transposed weight are the same sum over the 1024-long contracted axis, and both spell the logistic as
  `1 / (1 + e^{-z})` — the kernel writing `0 - z` where the reference writes `-z`, which agree on every extended
  real. So both programs end with the same two arrays (LstmCell.lean's `hiddenArr` and `cellArr` of the arguments):
  KerRun.lean reads the kernel's run back block by block, RefCell.lean reads the reference stage by stage. No law that
  needs finiteness is used, so the precondition is never opened. The idealized kernel is the kernel's own text read at
  the extended reals, so there is nothing to preserve.
-/
import proofs.«137256_j12343736008988_1_alg».proof.Defs
import proofs.«137256_j12343736008988_1_alg».proof.Proof.Gen.Kernel
import proofs.«137256_j12343736008988_1_alg».proof.Proof.Gen.Kernel.Frame
import proofs.«137256_j12343736008988_1_alg».proof.Proof.Gen.KernelIdeal
import proofs.«137256_j12343736008988_1_alg».proof.Proof.Gen.KernelIdeal.Frame
import proofs.«137256_j12343736008988_1_alg».proof.Proof.Gen.KernelIdeal.Value
import proofs.«137256_j12343736008988_1_alg».proof.Proof.Gen.ReferenceIdeal
import proofs.«137256_j12343736008988_1_alg».proof.Proof.Gen.ReferenceIdeal.Run
import proofs.«137256_j12343736008988_1_alg».proof.Proof.Gen.ReferenceIdeal.Read
import proofs.«137256_j12343736008988_1_alg».proof.Proof.Gen.Pre_finite_inputs
import proofs.«137256_j12343736008988_1_alg».proof.Proof.KerRun
import proofs.«137256_j12343736008988_1_alg».proof.Proof.RefCell
import Idealize.ShloMosaic.Adequacy
import Idealize.ShloMosaic.Init

noncomputable section

namespace Cert.Proof

open Idealize.ShloMosaic Idealize.ShloMosaic.TcCoe Idealize.SL.Sem Cert.LstmCell

/-- The word-level kernel runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference is a straight line of array operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the ten arguments, the kernel ends with its two results at the new hidden and the new
    cell arrays of the arguments (KerRun.lean), and the reference's two results are the same two arrays of its own
    arguments (RefCell.lean), which are the kernel's. -/
theorem algebraic : Cert.algebraic_KernelIdeal_ReferenceIdeal := by
  intro m ρ m' ρ' _ hagree
  refine ⟨fun c => hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KerRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9⟩ := hagree c
    rw [Cert.ReferenceIdeal.Read.val_main_v50_eq, Cert.ReferenceIdeal.RefCell.hiddenArr_eq, h0, h1, h2, h3, h4, h5, h6, h7, h8, h9]
  · obtain ⟨h0, h1, h2, h3, h4, h5, h6, h7, h8, h9⟩ := hagree c
    rw [Cert.ReferenceIdeal.Read.val_main_v48_eq, Cert.ReferenceIdeal.RefCell.cellArr_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
